-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128 : Shape := ⟨2, ![4, 128]⟩
abbrev S4x384x2 : Shape := ⟨3, ![4, 384, 2]⟩
abbrev S4x384x1 : Shape := ⟨3, ![4, 384, 1]⟩
abbrev S4x256x2 : Shape := ⟨3, ![4, 256, 2]⟩
abbrev S130x128 : Shape := ⟨2, ![130, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel
  bcast_S_S4x384x2 : S_.BroadcastsInDim S4x384x2 (![] : Fin 0 → Fin S4x384x2.rank)
  reducesTo_S4x384x2_S_d0_1_2 : S4x384x2.ReducesTo [0, 1, 2] S_
  bcast_S_S4x384x1 : S_.BroadcastsInDim S4x384x1 (![] : Fin 0 → Fin S4x384x1.rank)
  reducesTo_S4x384x1_S_d0_1_2 : S4x384x1.ReducesTo [0, 1, 2] S_
  bcast_S_S4x256x2 : S_.BroadcastsInDim S4x256x2 (![] : Fin 0 → Fin S4x256x2.rank)
  reducesTo_S4x256x2_S_d0_1_2 : S4x256x2.ReducesTo [0, 1, 2] S_
  bcast_S_S130x128 : S_.BroadcastsInDim S130x128 (![] : Fin 0 → Fin S130x128.rank)
  reducesTo_S130x128_S_d0_1 : S130x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S130x128 .f32) (main_arg5 : FVec F S128 .f32) (main_arg6 : FVec F S128x64 .f32) (main_arg7 : FVec F S64 .f32) (main_v13 : IVec S_ 1) (main_v16 : IVec S4x256x2 1) : IVec S_ 1 :=
  let main_c_5 : IVec S_ 1 := constantI S_ 1 1#1
  let main_v17 : IVec S_ 1 := (fun x v => Host.reduce IntOp.andi x v reducesTo_S4x256x2_S_d0_1_2 h_S_) main_v16 main_c_5
  let main_v18 : IVec S_ 1 := andi main_v13 main_v17
  let main_v19 : FVec F S130x128 .f32 := Host.absf main_arg4
  let main_cst_6 : FVec F S_ .f32 := constant S_ .f32 0x7F800000#32
  let main_v20 : FVec F S130x128 .f32 := broadcastInDim S130x128 ![] bcast_S_S130x128 main_cst_6
  let main_v21 : IVec S130x128 1 := cmpf .olt main_v19 main_v20
  let main_c_7 : IVec S_ 1 := constantI S_ 1 1#1
  let main_v22 : IVec S_ 1 := (fun x v => Host.reduce IntOp.andi x v reducesTo_S130x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S4x128 .f32) (main_arg1 : FVec F S4x384x2 .f32) (main_arg2 : FVec F S4x384x1 .f32) (main_arg3 : FVec F S4x256x2 .f32) (main_arg4 : FVec F S130x128 .f32) (main_arg5 : FVec F S128 .f32) (main_arg6 : FVec F S128x64 .f32) (main_arg7 : FVec F S64 .f32) : IVec S_ 1 :=
  let main_v0 : FVec F S4x128 .f32 := Host.absf main_arg0
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_v4 : FVec F S4x384x2 .f32 := Host.absf main_arg1
  let main_cst_0 : FVec F S_ .f32 := constant S_ .f32 0x7F800000#32
  let main_v5 : FVec F S4x384x2 .f32 := broadcastInDim S4x384x2 ![] bcast_S_S4x384x2 main_cst_0
  let main_v6 : IVec S4x384x2 1 := cmpf .olt main_v4 main_v5
  let main_c_1 : IVec S_ 1 := constantI S_ 1 1#1
  let main_v7 : IVec S_ 1 := (fun x v => Host.reduce IntOp.andi x v reducesTo_S4x384x2_S_d0_1_2 h_S_) main_v6 main_c_1
  let main_v8 : IVec S_ 1 := andi main_v3 main_v7
  let main_v9 : FVec F S4x384x1 .f32 := Host.absf main_arg2
  let main_cst_2 : FVec F S_ .f32 := constant S_ .f32 0x7F800000#32
  let main_v10 : FVec F S4x384x1 .f32 := broadcastInDim S4x384x1 ![] bcast_S_S4x384x1 main_cst_2
  let main_v11 : IVec S4x384x1 1 := cmpf .olt main_v9 main_v10
  let main_c_3 : IVec S_ 1 := constantI S_ 1 1#1
  let main_v12 : IVec S_ 1 := (fun x v => Host.reduce IntOp.andi x v reducesTo_S4x384x1_S_d0_1_2 h_S_) main_v11 main_c_3
  let main_v13 : IVec S_ 1 := andi main_v8 main_v12
  let main_v14 : FVec F S4x256x2 .f32 := Host.absf main_arg3
  let main_cst_4 : FVec F S_ .f32 := constant S_ .f32 0x7F800000#32
  let main_v15 : FVec F S4x256x2 .f32 := broadcastInDim S4x256x2 ![] bcast_S_S4x256x2 main_cst_4
  let main_v16 : IVec S4x256x2 1 := cmpf .olt main_v14 main_v15
  fn_part1 (F := F) main_arg4 main_arg5 main_arg6 main_arg7 main_v13 main_v16
-- ==== Kernel.lean ====
abbrev S4x128 : Shape := ⟨2, ![4, 128]⟩
abbrev S4x384x2 : Shape := ⟨3, ![4, 384, 2]⟩
abbrev S4x384x1 : Shape := ⟨3, ![4, 384, 1]⟩
abbrev S4x256x2 : Shape := ⟨3, ![4, 256, 2]⟩
abbrev S130x128 : Shape := ⟨2, ![130, 128]⟩
abbrev S128 : Shape := ⟨1, ![128]⟩
abbrev S128x64 : Shape := ⟨2, ![128, 64]⟩
abbrev S64 : Shape := ⟨1, ![64]⟩
abbrev S2x128 : Shape := ⟨2, ![2, 128]⟩
abbrev S128x128 : Shape := ⟨2, ![128, 128]⟩
abbrev S4x1x128 : Shape := ⟨3, ![4, 1, 128]⟩
abbrev S4x384x384x64 : Shape := ⟨4, ![4, 384, 384, 64]⟩
abbrev S1x128x2 : Shape := ⟨3, ![1, 128, 2]⟩
abbrev S1x64x2 : Shape := ⟨3, ![1, 64, 2]⟩
abbrev S1x1x128 : Shape := ⟨3, ![1, 1, 128]⟩
abbrev S1x128x64x64 : Shape := ⟨4, ![1, 128, 64, 64]⟩
abbrev S128x2 : Shape := ⟨2, ![128, 2]⟩
abbrev S64x2 : Shape := ⟨2, ![64, 2]⟩
abbrev S128x1 : Shape := ⟨2, ![128, 1]⟩
abbrev S64x1 : Shape := ⟨2, ![64, 1]⟩
abbrev S1x64 : Shape := ⟨2, ![1, 64]⟩
abbrev S128x64x1 : Shape := ⟨3, ![128, 64, 1]⟩
abbrev S1x128 : Shape := ⟨2, ![1, 128]⟩
abbrev S128x64x128 : Shape := ⟨3, ![128, 64, 128]⟩
abbrev S8192x128 : Shape := ⟨2, ![8192, 128]⟩
abbrev S8192x64 : Shape := ⟨2, ![8192, 64]⟩
abbrev S128x64x64 : Shape := ⟨3, ![128, 64, 64]⟩

abbrev nBuf : Space → Nat
  | .hbm => 12
  | .vmem => 13
  | .smem => 0
  | _ => 0

abbrev bufTy : (tb : Table) → Fin (tcTables nBuf tb) → BufTy
  | .hbm, ⟨0, _⟩ => ⟨S4x128, .f32⟩
  | .hbm, ⟨1, _⟩ => ⟨S4x384x2, .f32⟩
  | .hbm, ⟨2, _⟩ => ⟨S4x384x1, .f32⟩
  | .hbm, ⟨3, _⟩ => ⟨S4x256x2, .f32⟩
  | .hbm, ⟨4, _⟩ => ⟨S130x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S2x128, .f32⟩
  | .hbm, ⟨9, _⟩ => ⟨S128x128, .f32⟩
  | .hbm, ⟨10, _⟩ => ⟨S4x1x128, .f32⟩
  | .hbm, ⟨11, _⟩ => ⟨S4x384x384x64, .f32⟩
  | .local _ .vmem, ⟨0, _⟩ => ⟨S1x128x2, .f32⟩
  | .local _ .vmem, ⟨1, _⟩ => ⟨S1x128x2, .f32⟩
  | .local _ .vmem, ⟨2, _⟩ => ⟨S1x64x2, .f32⟩
  | .local _ .vmem, ⟨3, _⟩ => ⟨S1x64x2, .f32⟩
  | .local _ .vmem, ⟨4, _⟩ => ⟨S1x1x128, .f32⟩
  | .local _ .vmem, ⟨5, _⟩ => ⟨S1x1x128, .f32⟩
  | .local _ .vmem, ⟨6, _⟩ => ⟨S2x128, .f32⟩
  | .local _ .vmem, ⟨7, _⟩ => ⟨S128x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S1x128x64x64, .f32⟩
  | .local _ .vmem, ⟨12, _⟩ => ⟨S1x128x64x64, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 3, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x128x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

class Facts₀ : Prop where
  slices_S130x128_S2x128_0_0 : S130x128.Slices ![0, 0] S2x128
  slices_S130x128_S128x128_2_0 : S130x128.Slices ![2, 0] S128x128
  shapeCasts_S4x128_S4x1x128 : S4x128.ShapeCasts S4x1x128
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  inb_S1x64x2_S1x64x2_0_0_0 : ∀ a, (![0, 0, 0] : Fin 3 → Nat) a + S1x64x2.size a ≤ S1x64x2.size a
  h_S1x64x2 : 0 < S1x64x2.numel
  shapeCasts_S1x64x2_S64x2 : S1x64x2.ShapeCasts S64x2
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128x1 : S128.ShapeCasts S128x1
  broadcasts_S128x1_S128x128 : S128x1.Broadcasts S128x128
  reduces_S128x128_S128 : S128x128.Reduces [0] S128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  slices_S128x2_o0_0_S128x1 : S128x2.Slices ![0, 0] S128x1
  shapeCasts_S128x1_S128 : S128x1.ShapeCasts S128
  slices_S64x2_o0_0_S64x1 : S64x2.Slices ![0, 0] S64x1
  shapeCasts_S64x1_S64 : S64x1.ShapeCasts S64
  shapeCasts_S64_S1x64 : S64.ShapeCasts S1x64
  broadcasts_S128x1_S128x64 : S128x1.Broadcasts S128x64
  broadcasts_S1x64_S128x64 : S1x64.Broadcasts S128x64
  shapeCasts_S128x64_S128x64x1 : S128x64.ShapeCasts S128x64x1
  slices_S2x128_o0_0_S1x128 : S2x128.Slices ![0, 0] S1x128
  shapeCasts_S1x128_S128 : S1x128.ShapeCasts S128
  shapeCasts_S128_S1x1x128 : S128.ShapeCasts S1x1x128
  broadcasts_S128x64x1_S128x64x128 : S128x64x1.Broadcasts S128x64x128
  broadcasts_S1x1x128_S128x64x128 : S1x1x128.Broadcasts S128x64x128
  slices_S128x2_o0_1_S128x1 : S128x2.Slices ![0, 1] S128x1
  slices_S64x2_o0_1_S64x1 : S64x2.Slices ![0, 1] S64x1
  slices_S2x128_o1_0_S1x128 : S2x128.Slices ![1, 0] S1x128
  shapeCasts_S128x64x128_S8192x128 : S128x64x128.ShapeCasts S8192x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  broadcasts_S1x64_S8192x64 : S1x64.Broadcasts S8192x64
  shapeCasts_S8192x64_S128x64x64 : S8192x64.ShapeCasts S128x64x64
  inb_S1x128x64x64_S1x128x64x64_0_0_0_0 : ∀ a, (![0, 0, 0, 0] : Fin 4 → Nat) a + S1x128x64x64.size a ≤ S1x128x64x64.size a
  h_S1x128x64x64 : 0 < S1x128x64x64.numel
  shapeCasts_S1x128x64x64_S128x64x64 : S1x128x64x64.ShapeCasts S128x64x64
  shapeCasts_S128x64x64_S1x128x64x64 : S128x64x64.ShapeCasts S1x128x64x64
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2.size a ≤ S4x384x2.size a
  hwx0_0 : ∀ i : grid0.Coords, EltTy.bits .f32 = 32 ∨ (Rect.block (s := S4x384x2) S1x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2.size a ≤ S4x384x2.size a
  hwx0_1 : ∀ i : grid0.Coords, EltTy.bits .f32 = 32 ∨ (Rect.block (s := S4x384x2) S1x64x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x64x64.size a ≤ S4x384x384x64.size a
  hwx0_8 : ∀ i : grid0.Coords, EltTy.bits .f32 = 32 ∨ (Rect.block (s := S4x384x384x64) S1x128x64x64.size (cc0_transform_8 i) (hinb0_8 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_arg1) S1x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128x64x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x128 : Shape := ⟨2, ![4, 128]⟩
abbrev S4x384x2 : Shape := ⟨3, ![4, 384, 2]⟩
abbrev S4x384x1 : Shape := ⟨3, ![4, 384, 1]⟩
abbrev S4x256x2 : Shape := ⟨3, ![4, 256, 2]⟩
abbrev S130x128 : Shape := ⟨2, ![130, 128]⟩
abbrev S128 : Shape := ⟨1, ![128]⟩
abbrev S128x64 : Shape := ⟨2, ![128, 64]⟩
abbrev S64 : Shape := ⟨1, ![64]⟩
abbrev S4x384x1x2 : Shape := ⟨4, ![4, 384, 1, 2]⟩
abbrev S4x1x384x2 : Shape := ⟨4, ![4, 1, 384, 2]⟩
abbrev S4x384x384x2 : Shape := ⟨4, ![4, 384, 384, 2]⟩
abbrev S4x1x1x128 : Shape := ⟨4, ![4, 1, 1, 128]⟩
abbrev S4x384x384x128 : Shape := ⟨4, ![4, 384, 384, 128]⟩
abbrev S4x384x384x130 : Shape := ⟨4, ![4, 384, 384, 130]⟩
abbrev S1x1x1x128 : Shape := ⟨4, ![1, 1, 1, 128]⟩
abbrev S_ : Shape := ⟨0, ![]⟩
abbrev S4x384x384x64 : Shape := ⟨4, ![4, 384, 384, 64]⟩
abbrev S1x1x1x64 : Shape := ⟨4, ![1, 1, 1, 64]⟩

abbrev nBuf : Space → Nat
  | .hbm => 27
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x384x2, .f32⟩
  | .hbm, ⟨2, _⟩ => ⟨S4x384x1, .f32⟩
  | .hbm, ⟨3, _⟩ => ⟨S4x256x2, .f32⟩
  | .hbm, ⟨4, _⟩ => ⟨S130x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S4x384x1x2, .f32⟩
  | .hbm, ⟨9, _⟩ => ⟨S4x1x384x2, .f32⟩
  | .hbm, ⟨10, _⟩ => ⟨S4x384x384x2, .f32⟩
  | .hbm, ⟨11, _⟩ => ⟨S4x384x384x2, .f32⟩
  | .hbm, ⟨12, _⟩ => ⟨S4x384x384x2, .f32⟩
  | .hbm, ⟨13, _⟩ => ⟨S4x1x1x128, .f32⟩
  | .hbm, ⟨14, _⟩ => ⟨S4x384x384x128, .f32⟩
  | .hbm, ⟨15, _⟩ => ⟨S4x384x384x130, .f32⟩
  | .hbm, ⟨16, _⟩ => ⟨S4x384x384x128, .f32⟩
  | .hbm, ⟨17, _⟩ => ⟨S1x1x1x128, .f32⟩
  | .hbm, ⟨18, _⟩ => ⟨S4x384x384x128, .f32⟩
  | .hbm, ⟨19, _⟩ => ⟨S4x384x384x128, .f32⟩
  | .hbm, ⟨20, _⟩ => ⟨S_, .f32⟩
  | .hbm, ⟨21, _⟩ => ⟨S4x384x384x128, .f32⟩
  | .hbm, ⟨22, _⟩ => ⟨S4x384x384x128, .f32⟩
  | .hbm, ⟨23, _⟩ => ⟨S4x384x384x64, .f32⟩
  | .hbm, ⟨24, _⟩ => ⟨S1x1x1x64, .f32⟩
  | .hbm, ⟨25, _⟩ => ⟨S4x384x384x64, .f32⟩
  | .hbm, ⟨26, _⟩ => ⟨S4x384x384x64, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S4x384x2_S4x384x1x2_0_1_3 : S4x384x2.BroadcastsInDim S4x384x1x2 (![0, 1, 3] : Fin 3 → Fin S4x384x1x2.rank)
  bcast_S4x384x2_S4x1x384x2_0_2_3 : S4x384x2.BroadcastsInDim S4x1x384x2 (![0, 2, 3] : Fin 3 → Fin S4x1x384x2.rank)
  bcast_S4x384x1x2_S4x384x384x2_0_1_2_3 : S4x384x1x2.BroadcastsInDim S4x384x384x2 (![0, 1, 2, 3] : Fin 4 → Fin S4x384x384x2.rank)
  bcast_S4x1x384x2_S4x384x384x2_0_1_2_3 : S4x1x384x2.BroadcastsInDim S4x384x384x2 (![0, 1, 2, 3] : Fin 4 → Fin S4x384x384x2.rank)
  bcast_S4x128_S4x1x1x128_0_3 : S4x128.BroadcastsInDim S4x1x1x128 (![0, 3] : Fin 2 → Fin S4x1x1x128.rank)
  bcast_S4x1x1x128_S4x384x384x128_0_1_2_3 : S4x1x1x128.BroadcastsInDim S4x384x384x128 (![0, 1, 2, 3] : Fin 4 → Fin S4x384x384x128.rank)
  concatenates_S4x384x384x2_S4x384x384x128_S4x384x384x130_d3 : Shape.Concatenates [S4x384x384x2, S4x384x384x128] S4x384x384x130 3
  bcast_S128_S1x1x1x128_3 : S128.BroadcastsInDim S1x1x1x128 (![3] : Fin 1 → Fin S1x1x1x128.rank)
  bcast_S1x1x1x128_S4x384x384x128_0_1_2_3 : S1x1x1x128.BroadcastsInDim S4x384x384x128 (![0, 1, 2, 3] : Fin 4 → Fin S4x384x384x128.rank)
  bcast_S_S4x384x384x128 : S_.BroadcastsInDim S4x384x384x128 (![] : Fin 0 → Fin S4x384x384x128.rank)
  bcast_S64_S1x1x1x64_3 : S64.BroadcastsInDim S1x1x1x64 (![3] : Fin 1 → Fin S1x1x1x64.rank)
  bcast_S1x1x1x64_S4x384x384x64_0_1_2_3 : S1x1x1x64.BroadcastsInDim S4x384x384x64 (![0, 1, 2, 3] : Fin 4 → Fin S4x384x384x64.rank)
  dot_S4x384x384x130_S130x128_S4x384x384x128_3_0_012_1_n_n_wf : DotDims.WF S4x384x384x130 S130x128 S4x384x384x128 [3] [0] [0, 1, 2] [1] [] []
  dot_S4x384x384x128_S128x64_S4x384x384x64_3_0_012_1_n_n_wf : DotDims.WF S4x384x384x128 S128x64 S4x384x384x64 [3] [0] [0, 1, 2] [1] [] []

variable [Facts₀]

def dot_S4x384x384x130_S130x128_S4x384x384x128_3_0_012_1_n_n : DotDims S4x384x384x130 S130x128 S4x384x384x128 where
  lhsContracting := [3]
  rhsContracting := [0]
  lhsNonContracting := [0, 1, 2]
  rhsNonContracting := [1]
  lhsBatch := []
  rhsBatch := []
  wf := dot_S4x384x384x130_S130x128_S4x384x384x128_3_0_012_1_n_n_wf
def dot_S4x384x384x128_S128x64_S4x384x384x64_3_0_012_1_n_n : DotDims S4x384x384x128 S128x64 S4x384x384x64 where
  lhsContracting := [3]
  rhsContracting := [0]
  lhsNonContracting := [0, 1, 2]
  rhsNonContracting := [1]
  lhsBatch := []
  rhsBatch := []
  wf := dot_S4x384x384x128_S128x64_S4x384x384x64_3_0_012_1_n_n_wf

class Facts : Prop extends Facts₀ where

variable [Facts]
-- ==== Proof.BitsBody.lean ====
/-
  The pairwise decoder's tile body, for one of the kernel's two printed programs (the text is the same for the other,
  with the program's name changed): what the region finds in each array, each window's block at a grid point, and the
  body's triple. The grid is (batch b, row tile ni of 128, column tile mi of 64); the body reads a row tile and a column
  tile of the SAME context array (two windows on one array), the batch's representation row, the first-layer weight cut
  into its two coordinate rows and its 128 representation rows, both biases and the second-layer weight, and stores one
  128 x 64 x 64 output tile. Everything here is generic in the float instance.
-/
import proofs.«143945_j27135603376524_1_alg».proof.Proof.Gen.Kernel.Launch
import proofs.«143945_j27135603376524_1_alg».proof.Proof.Gen.Kernel.Skeleton
import proofs.«143945_j27135603376524_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the pairwise region is entered: the launch contents after the three host lines
    that cut the first-layer weight into its two coordinate rows and its 128 representation rows and give the
    representation a unit middle axis. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is those three lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host line writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a point
    that does not fetch a window has not moved its block index), for any proof data whose arrays are the
    region-entry contents and whose body leaves the input blocks in place. -/
theorem found_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rXn : Rect S1x128x2 := Rect.unit (s := S1x128x2) ![0, 0, 0] S1x128x2.size inb_S1x128x2_S1x128x2_0_0_0
abbrev rXm : Rect S1x64x2 := Rect.unit (s := S1x64x2) ![0, 0, 0] S1x64x2.size inb_S1x64x2_S1x64x2_0_0_0
abbrev rR : Rect S1x1x128 := Rect.unit (s := S1x1x128) ![0, 0, 0] S1x1x128.size inb_S1x1x128_S1x1x128_0_0_0
abbrev rW1x : Rect S2x128 := Rect.unit (s := S2x128) ![0, 0] S2x128.size inb_S2x128_S2x128_0_0
abbrev rW1r : Rect S128x128 := Rect.unit (s := S128x128) ![0, 0] S128x128.size inb_S128x128_S128x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rOut : Rect S1x128x64x64 := Rect.unit (s := S1x128x64x64) ![0, 0, 0, 0] S1x128x64x64.size inb_S1x128x64x64_S1x128x64x64_0_0_0_0

/-- The output tile the body leaves, from the eight input blocks: its one whole-tile store, whose value is the
    second layer applied to the rectified first layer of the tile's pairwise differences. -/
def outTile (xn : Vec F S1x128x2 .f32) (xm : Vec F S1x64x2 .f32) (r : Vec F S1x1x128 .f32) (w1x : Vec F S2x128 .f32)
    (w1r : Vec F S128x128 .f32) (b1 : Vec F S128 .f32) (w2 : Vec F S128x64 .f32) (b2 : Vec F S64 .f32) : Vec F S1x128x64x64 .f32 :=
  View.canon [⟨rOut, k0_pay1 (k0_pay4 (View.ld w1x rW1x))
    (k0_pay5 (View.ld xn rXn) (View.ld xm rXm) (View.ld r rR) (View.ld w1r rW1r) (View.ld b1 rB1) (View.ld w1x rW1x))
    (k0_pay6 (View.ld xm rXm)) (k0_pay7 (View.ld xn rXn)) (View.ld w2 rW2) (View.ld b2 rB2)⟩]

/-- The one store is of the whole tile. -/
theorem outTile_cover (p0 : Vec F S1x128x64x64 .f32) (y : S1x128x64x64.Idx) :
    ∃ pc ∈ ([⟨rOut, p0⟩] : List (View.Piece (Elt F) S1x128x64x64 .f32)), y ∈ pc.1.set :=
  View.cover_of_tiled [⟨rOut, p0⟩] S1x128x64x64.size (by rfl) y

/-! ## The body's triple -/

set_option maxHeartbeats 1000000 in
/-- The kernel body on whole staging buffers — the eight inputs' at given contents, the output's at anything — runs to
    a continuation holding the inputs' as they were and the output's at `outTile` of them. -/
theorem sound_kernel (c : Dev nD) (E : Set ℕ) (i : grid0.Coords)
    (a3 : Memref sig .tc .vmem S1x128x2 .f32) (h3 : a3.IsWhole) (a4 : Memref sig .tc .vmem S1x64x2 .f32) (h4 : a4.IsWhole)
    (a5 : Memref sig .tc .vmem S1x1x128 .f32) (h5 : a5.IsWhole) (a6 : Memref sig .tc .vmem S2x128 .f32) (h6 : a6.IsWhole)
    (a7 : Memref sig .tc .vmem S128x128 .f32) (h7 : a7.IsWhole) (a8 : Memref sig .tc .vmem S128 .f32) (h8 : a8.IsWhole)
    (a9 : Memref sig .tc .vmem S128x64 .f32) (h9 : a9.IsWhole) (a10 : Memref sig .tc .vmem S64 .f32) (h10 : a10.IsWhole)
    (a11 : Memref sig .tc .vmem S1x128x64x64 .f32) (h11 : a11.IsWhole)
    (xn : Vec F S1x128x2 .f32) (xm : Vec F S1x64x2 .f32) (r : Vec F S1x1x128 .f32) (w1x : Vec F S2x128 .f32)
    (w1r : Vec F S128x128 .f32) (b1 : Vec F S128 .f32) (w2 : Vec F S128x64 .f32) (b2 : Vec F S64 .f32) (K : PUnit → sProp 𝕄) :
    iprop(owns (c : Thread nD τ) a3 fullShare xn ∗ owns (c : Thread nD τ) a4 fullShare xm ∗ owns (c : Thread nD τ) a5 fullShare r
        ∗ owns (c : Thread nD τ) a6 fullShare w1x ∗ owns (c : Thread nD τ) a7 fullShare w1r ∗ owns (c : Thread nD τ) a8 fullShare b1
        ∗ owns (c : Thread nD τ) a9 fullShare w2 ∗ owns (c : Thread nD τ) a10 fullShare b2 ∗ (∃ d, owns (c : Thread nD τ) a11 fullShare d)
        ∗ (iprop(owns (c : Thread nD τ) a3 fullShare xn ∗ owns (c : Thread nD τ) a4 fullShare xm ∗ owns (c : Thread nD τ) a5 fullShare r
            ∗ owns (c : Thread nD τ) a6 fullShare w1x ∗ owns (c : Thread nD τ) a7 fullShare w1r ∗ owns (c : Thread nD τ) a8 fullShare b1
            ∗ owns (c : Thread nD τ) a9 fullShare w2 ∗ owns (c : Thread nD τ) a10 fullShare b2
            ∗ owns (c : Thread nD τ) a11 fullShare (outTile xn xm r w1x w1r b1 w2 b2)) -∗ K ⟨⟩))
      ⊢ wp frame (wpE (defs₀ (F := F)) Variants.none c none) E (cc0__kernel i a3 h3 a4 h4 a5 h5 a6 h6 a7 h7 a8 h8 a9 h9 a10 h10 a11 h11) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outTile_cover _)

end Cert.Kernel.Pairwise

end
-- ==== Proof.BitsRun.lean ====
/-
  The pairwise decoder's region run, for one of the kernel's two printed programs (the text is the same for the other,
  with the program's name changed): the proof data, the body obligation at every grid point, and the launch. Two of the
  nine windows read the same context array, so the launch is the one for input windows that share an array: the
  buffers behind the arrays, each whole, are dealt to the windows with the shared array's full share cut in two halves.
  Everything here is generic in the float instance.
-/
import proofs.«143945_j27135603376524_1_alg».proof.Proof.BitsBody

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`: the arrays as the region finds them; after the body at point `t`
    each input's buffer still at its block and the output's at `outTile` of the eight blocks; the invariant the
    scoped buffers that are no staging buffer (there are none); nothing owed. The context array is read through two
    windows, the row tile and the column tile: each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outTile (iblk m c 0 t) (iblk m c 1 t) (iblk m c 2 t) (iblk m c 3 t) (iblk m c 4 t) (iblk m c 5 t) (iblk m c 6 t) (iblk m c 7 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t
    = outTile (iblk m c 0 t) (iblk m c 1 t) (iblk m c 2 t) (iblk m c 3 t) (iblk m c 4 t) (iblk m c 5 t) (iblk m c 6 t) (iblk m c 7 t) := by
  dsimp only [dats]

theorem before_0 (c : Dev nD) (t : Fin cfg0.N) (d) : (dats m 0 c).before 0 t d = iblk m c 0 t :=
  found_0 m (dats m 0 c) (A_eq m c 0) (after_0 m c) t d
theorem before_1 (c : Dev nD) (t : Fin cfg0.N) (d) : (dats m 0 c).before 1 t d = iblk m c 1 t :=
  found_1 m (dats m 0 c) (A_eq m c 1) (after_1 m c) t d
theorem before_2 (c : Dev nD) (t : Fin cfg0.N) (d) : (dats m 0 c).before 2 t d = iblk m c 2 t :=
  found_2 m (dats m 0 c) (A_eq m c 2) (after_2 m c) t d
theorem before_3 (c : Dev nD) (t : Fin cfg0.N) (d) : (dats m 0 c).before 3 t d = iblk m c 3 t :=
  found_3 m (dats m 0 c) (A_eq m c 3) (after_3 m c) t d
theorem before_4 (c : Dev nD) (t : Fin cfg0.N) (d) : (dats m 0 c).before 4 t d = iblk m c 4 t :=
  found_4 m (dats m 0 c) (A_eq m c 4) (after_4 m c) t d
theorem before_5 (c : Dev nD) (t : Fin cfg0.N) (d) : (dats m 0 c).before 5 t d = iblk m c 5 t :=
  found_5 m (dats m 0 c) (A_eq m c 5) (after_5 m c) t d
theorem before_6 (c : Dev nD) (t : Fin cfg0.N) (d) : (dats m 0 c).before 6 t d = iblk m c 6 t :=
  found_6 m (dats m 0 c) (A_eq m c 6) (after_6 m c) t d
theorem before_7 (c : Dev nD) (t : Fin cfg0.N) (d) : (dats m 0 c).before 7 t d = iblk m c 7 t :=
  found_7 m (dats m 0 c) (A_eq m c 7) (after_7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: every input buffer holds its block, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The arrays at entry: the context array split between its two windows -/

/-- The eight distinct buffers behind the nine windows' arrays, one by one. -/
theorem arrBufs_chain (c : Dev nD) :
    (Pipeline.arrBufs (Ix := Unit) (Name := ℕ) (U := UR sig nD τ) (Lvl := ℕ) spec0 c (V m c) : sProp 𝕄)
      = iprop((((c : Thread nD τ).loc main_arg1) ↦{fullShare} V m c main_arg1) ∗ (((c : Thread nD τ).loc main_v2) ↦{fullShare} V m c main_v2) ∗ (((c : Thread nD τ).loc main_v0) ↦{fullShare} V m c main_v0) ∗ (((c : Thread nD τ).loc main_v1) ↦{fullShare} V m c main_v1) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_v3) ↦{fullShare} V m c main_v3)) := by
  unfold Pipeline.arrBufs
  exact bigSep_eq_bigSepL_of_eq [main_arg1, main_v2, main_v0, main_v1, main_arg5, main_arg6, main_arg7, main_v3] (by decide) (by decide) _

/-- The eight distinct buffers behind the nine windows' arrays, each whole at the full share, are the nine windows'
    arrays at the proof data's shares: the context array's full share is its two halves. -/
theorem arrays_of_bufs (c : Dev nD) :
    (Pipeline.arrBufs (Ix := Unit) (Name := ℕ) (U := UR sig nD τ) (Lvl := ℕ) spec0 c (V m c) : sProp 𝕄)
      ⊢ (dats m 0 c).arrays fun w => (dats m 0 c).arrAt w 0 := by
  rw [arrBufs_chain]
  unfold Dat.arrays
  rw [bigSep_W0]
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  have hs5 : (dats m 0 c).share 5 = fullShare := rfl
  have hs6 : (dats m 0 c).share 6 = fullShare := rfl
  have hs7 : (dats m 0 c).share 7 = fullShare := rfl
  have hs8 : (dats m 0 c).share 8 = fullShare := rfl
  rw [hs0, hs1, hs2, hs3, hs4, hs5, hs6, hs7, hs8,
    (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ]
  iintro ⟨Hx, Hr, Hw1x, Hw1r, Hb1, Hw2, Hb2, Ho⟩
  ihave Hx' := (pointsTo_share (PosShare.mem_left_op_right fullShare)).1 $$ Hx
  icases Hx' with ⟨Hxl, Hxr⟩
  isplitl [Hxl]; · iexact Hxl
  isplitl [Hxr]; · iexact Hxr
  isplitl [Hr]; · iexact Hr
  isplitl [Hw1x]; · iexact Hw1x
  isplitl [Hw1r]; · iexact Hw1r
  isplitl [Hb1]; · iexact Hb1
  isplitl [Hw2]; · iexact Hw2
  isplitl [Hb2]; · iexact Hb2
  iexact Ho

/-! ## The run -/

set_option backward.isDefEq.respectTransparency.types false in
/-- From any memory with zero counters, every weakly fair execution of @main terminates; at the end every windowed array
    holds what the write-backs of the proof data leave in it, and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the run ends with every argument array as launched — the four the kernel reads through windows by
    the run's first clause (an input array is never written), the other four by its second. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩) (run_main m ρ)

end Cert.Kernel.Pairwise

end
-- ==== Proof.IdealBody.lean ====
/-
  The pairwise decoder's tile body, for one of the kernel's two printed programs (the text is the same for the other,
  with the program's name changed): what the region finds in each array, each window's block at a grid point, and the
  body's triple. The grid is (batch b, row tile ni of 128, column tile mi of 64); the body reads a row tile and a column
  tile of the SAME context array (two windows on one array), the batch's representation row, the first-layer weight cut
  into its two coordinate rows and its 128 representation rows, both biases and the second-layer weight, and stores one
  128 x 64 x 64 output tile. Everything here is generic in the float instance.
-/
import proofs.«143945_j27135603376524_1_alg».proof.Proof.Gen.KernelIdeal.Launch
import proofs.«143945_j27135603376524_1_alg».proof.Proof.Gen.KernelIdeal.Skeleton
import proofs.«143945_j27135603376524_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the pairwise region is entered: the launch contents after the three host lines
    that cut the first-layer weight into its two coordinate rows and its 128 representation rows and give the
    representation a unit middle axis. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is those three lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host line writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a point
    that does not fetch a window has not moved its block index), for any proof data whose arrays are the
    region-entry contents and whose body leaves the input blocks in place. -/
theorem found_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rXn : Rect S1x128x2 := Rect.unit (s := S1x128x2) ![0, 0, 0] S1x128x2.size inb_S1x128x2_S1x128x2_0_0_0
abbrev rXm : Rect S1x64x2 := Rect.unit (s := S1x64x2) ![0, 0, 0] S1x64x2.size inb_S1x64x2_S1x64x2_0_0_0
abbrev rR : Rect S1x1x128 := Rect.unit (s := S1x1x128) ![0, 0, 0] S1x1x128.size inb_S1x1x128_S1x1x128_0_0_0
abbrev rW1x : Rect S2x128 := Rect.unit (s := S2x128) ![0, 0] S2x128.size inb_S2x128_S2x128_0_0
abbrev rW1r : Rect S128x128 := Rect.unit (s := S128x128) ![0, 0] S128x128.size inb_S128x128_S128x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rOut : Rect S1x128x64x64 := Rect.unit (s := S1x128x64x64) ![0, 0, 0, 0] S1x128x64x64.size inb_S1x128x64x64_S1x128x64x64_0_0_0_0

/-- The output tile the body leaves, from the eight input blocks: its one whole-tile store, whose value is the
    second layer applied to the rectified first layer of the tile's pairwise differences. -/
def outTile (xn : Vec F S1x128x2 .f32) (xm : Vec F S1x64x2 .f32) (r : Vec F S1x1x128 .f32) (w1x : Vec F S2x128 .f32)
    (w1r : Vec F S128x128 .f32) (b1 : Vec F S128 .f32) (w2 : Vec F S128x64 .f32) (b2 : Vec F S64 .f32) : Vec F S1x128x64x64 .f32 :=
  View.canon [⟨rOut, k0_pay1 (k0_pay4 (View.ld w1x rW1x))
    (k0_pay5 (View.ld xn rXn) (View.ld xm rXm) (View.ld r rR) (View.ld w1r rW1r) (View.ld b1 rB1) (View.ld w1x rW1x))
    (k0_pay6 (View.ld xm rXm)) (k0_pay7 (View.ld xn rXn)) (View.ld w2 rW2) (View.ld b2 rB2)⟩]

/-- The one store is of the whole tile. -/
theorem outTile_cover (p0 : Vec F S1x128x64x64 .f32) (y : S1x128x64x64.Idx) :
    ∃ pc ∈ ([⟨rOut, p0⟩] : List (View.Piece (Elt F) S1x128x64x64 .f32)), y ∈ pc.1.set :=
  View.cover_of_tiled [⟨rOut, p0⟩] S1x128x64x64.size (by rfl) y

/-! ## The body's triple -/

set_option maxHeartbeats 1000000 in
/-- The kernel body on whole staging buffers — the eight inputs' at given contents, the output's at anything — runs to
    a continuation holding the inputs' as they were and the output's at `outTile` of them. -/
theorem sound_kernel (c : Dev nD) (E : Set ℕ) (i : grid0.Coords)
    (a3 : Memref sig .tc .vmem S1x128x2 .f32) (h3 : a3.IsWhole) (a4 : Memref sig .tc .vmem S1x64x2 .f32) (h4 : a4.IsWhole)
    (a5 : Memref sig .tc .vmem S1x1x128 .f32) (h5 : a5.IsWhole) (a6 : Memref sig .tc .vmem S2x128 .f32) (h6 : a6.IsWhole)
    (a7 : Memref sig .tc .vmem S128x128 .f32) (h7 : a7.IsWhole) (a8 : Memref sig .tc .vmem S128 .f32) (h8 : a8.IsWhole)
    (a9 : Memref sig .tc .vmem S128x64 .f32) (h9 : a9.IsWhole) (a10 : Memref sig .tc .vmem S64 .f32) (h10 : a10.IsWhole)
    (a11 : Memref sig .tc .vmem S1x128x64x64 .f32) (h11 : a11.IsWhole)
    (xn : Vec F S1x128x2 .f32) (xm : Vec F S1x64x2 .f32) (r : Vec F S1x1x128 .f32) (w1x : Vec F S2x128 .f32)
    (w1r : Vec F S128x128 .f32) (b1 : Vec F S128 .f32) (w2 : Vec F S128x64 .f32) (b2 : Vec F S64 .f32) (K : PUnit → sProp 𝕄) :
    iprop(owns (c : Thread nD τ) a3 fullShare xn ∗ owns (c : Thread nD τ) a4 fullShare xm ∗ owns (c : Thread nD τ) a5 fullShare r
        ∗ owns (c : Thread nD τ) a6 fullShare w1x ∗ owns (c : Thread nD τ) a7 fullShare w1r ∗ owns (c : Thread nD τ) a8 fullShare b1
        ∗ owns (c : Thread nD τ) a9 fullShare w2 ∗ owns (c : Thread nD τ) a10 fullShare b2 ∗ (∃ d, owns (c : Thread nD τ) a11 fullShare d)
        ∗ (iprop(owns (c : Thread nD τ) a3 fullShare xn ∗ owns (c : Thread nD τ) a4 fullShare xm ∗ owns (c : Thread nD τ) a5 fullShare r
            ∗ owns (c : Thread nD τ) a6 fullShare w1x ∗ owns (c : Thread nD τ) a7 fullShare w1r ∗ owns (c : Thread nD τ) a8 fullShare b1
            ∗ owns (c : Thread nD τ) a9 fullShare w2 ∗ owns (c : Thread nD τ) a10 fullShare b2
            ∗ owns (c : Thread nD τ) a11 fullShare (outTile xn xm r w1x w1r b1 w2 b2)) -∗ K ⟨⟩))
      ⊢ wp frame (wpE (defs₀ (F := F)) Variants.none c none) E (cc0__kernel i a3 h3 a4 h4 a5 h5 a6 h6 a7 h7 a8 h8 a9 h9 a10 h10 a11 h11) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outTile_cover _)

end Cert.KernelIdeal.Pairwise

end
-- ==== Proof.IdealRun.lean ====
/-
  The pairwise decoder's region run, for one of the kernel's two printed programs (the text is the same for the other,
  with the program's name changed): the proof data, the body obligation at every grid point, and the launch. Two of the
  nine windows read the same context array, so the launch is the one for input windows that share an array: the
  buffers behind the arrays, each whole, are dealt to the windows with the shared array's full share cut in two halves.
  Everything here is generic in the float instance.
-/
import proofs.«143945_j27135603376524_1_alg».proof.Proof.IdealBody

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`: the arrays as the region finds them; after the body at point `t`
    each input's buffer still at its block and the output's at `outTile` of the eight blocks; the invariant the
    scoped buffers that are no staging buffer (there are none); nothing owed. The context array is read through two
    windows, the row tile and the column tile: each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outTile (iblk m c 0 t) (iblk m c 1 t) (iblk m c 2 t) (iblk m c 3 t) (iblk m c 4 t) (iblk m c 5 t) (iblk m c 6 t) (iblk m c 7 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t
    = outTile (iblk m c 0 t) (iblk m c 1 t) (iblk m c 2 t) (iblk m c 3 t) (iblk m c 4 t) (iblk m c 5 t) (iblk m c 6 t) (iblk m c 7 t) := by
  dsimp only [dats]

theorem before_0 (c : Dev nD) (t : Fin cfg0.N) (d) : (dats m 0 c).before 0 t d = iblk m c 0 t :=
  found_0 m (dats m 0 c) (A_eq m c 0) (after_0 m c) t d
theorem before_1 (c : Dev nD) (t : Fin cfg0.N) (d) : (dats m 0 c).before 1 t d = iblk m c 1 t :=
  found_1 m (dats m 0 c) (A_eq m c 1) (after_1 m c) t d
theorem before_2 (c : Dev nD) (t : Fin cfg0.N) (d) : (dats m 0 c).before 2 t d = iblk m c 2 t :=
  found_2 m (dats m 0 c) (A_eq m c 2) (after_2 m c) t d
theorem before_3 (c : Dev nD) (t : Fin cfg0.N) (d) : (dats m 0 c).before 3 t d = iblk m c 3 t :=
  found_3 m (dats m 0 c) (A_eq m c 3) (after_3 m c) t d
theorem before_4 (c : Dev nD) (t : Fin cfg0.N) (d) : (dats m 0 c).before 4 t d = iblk m c 4 t :=
  found_4 m (dats m 0 c) (A_eq m c 4) (after_4 m c) t d
theorem before_5 (c : Dev nD) (t : Fin cfg0.N) (d) : (dats m 0 c).before 5 t d = iblk m c 5 t :=
  found_5 m (dats m 0 c) (A_eq m c 5) (after_5 m c) t d
theorem before_6 (c : Dev nD) (t : Fin cfg0.N) (d) : (dats m 0 c).before 6 t d = iblk m c 6 t :=
  found_6 m (dats m 0 c) (A_eq m c 6) (after_6 m c) t d
theorem before_7 (c : Dev nD) (t : Fin cfg0.N) (d) : (dats m 0 c).before 7 t d = iblk m c 7 t :=
  found_7 m (dats m 0 c) (A_eq m c 7) (after_7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: every input buffer holds its block, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The arrays at entry: the context array split between its two windows -/

/-- The eight distinct buffers behind the nine windows' arrays, one by one. -/
theorem arrBufs_chain (c : Dev nD) :
    (Pipeline.arrBufs (Ix := Unit) (Name := ℕ) (U := UR sig nD τ) (Lvl := ℕ) spec0 c (V m c) : sProp 𝕄)
      = iprop((((c : Thread nD τ).loc main_arg1) ↦{fullShare} V m c main_arg1) ∗ (((c : Thread nD τ).loc main_v2) ↦{fullShare} V m c main_v2) ∗ (((c : Thread nD τ).loc main_v0) ↦{fullShare} V m c main_v0) ∗ (((c : Thread nD τ).loc main_v1) ↦{fullShare} V m c main_v1) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_v3) ↦{fullShare} V m c main_v3)) := by
  unfold Pipeline.arrBufs
  exact bigSep_eq_bigSepL_of_eq [main_arg1, main_v2, main_v0, main_v1, main_arg5, main_arg6, main_arg7, main_v3] (by decide) (by decide) _

/-- The eight distinct buffers behind the nine windows' arrays, each whole at the full share, are the nine windows'
    arrays at the proof data's shares: the context array's full share is its two halves. -/
theorem arrays_of_bufs (c : Dev nD) :
    (Pipeline.arrBufs (Ix := Unit) (Name := ℕ) (U := UR sig nD τ) (Lvl := ℕ) spec0 c (V m c) : sProp 𝕄)
      ⊢ (dats m 0 c).arrays fun w => (dats m 0 c).arrAt w 0 := by
  rw [arrBufs_chain]
  unfold Dat.arrays
  rw [bigSep_W0]
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  have hs5 : (dats m 0 c).share 5 = fullShare := rfl
  have hs6 : (dats m 0 c).share 6 = fullShare := rfl
  have hs7 : (dats m 0 c).share 7 = fullShare := rfl
  have hs8 : (dats m 0 c).share 8 = fullShare := rfl
  rw [hs0, hs1, hs2, hs3, hs4, hs5, hs6, hs7, hs8,
    (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ]
  iintro ⟨Hx, Hr, Hw1x, Hw1r, Hb1, Hw2, Hb2, Ho⟩
  ihave Hx' := (pointsTo_share (PosShare.mem_left_op_right fullShare)).1 $$ Hx
  icases Hx' with ⟨Hxl, Hxr⟩
  isplitl [Hxl]; · iexact Hxl
  isplitl [Hxr]; · iexact Hxr
  isplitl [Hr]; · iexact Hr
  isplitl [Hw1x]; · iexact Hw1x
  isplitl [Hw1r]; · iexact Hw1r
  isplitl [Hb1]; · iexact Hb1
  isplitl [Hw2]; · iexact Hw2
  isplitl [Hb2]; · iexact Hb2
  iexact Ho

/-! ## The run -/

set_option backward.isDefEq.respectTransparency.types false in
/-- From any memory with zero counters, every weakly fair execution of @main terminates; at the end every windowed array
    holds what the write-backs of the proof data leave in it, and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the run ends with every argument array as launched — the four the kernel reads through windows by
    the run's first clause (an input array is never written), the other four by its second. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩) (run_main m ρ)

end Cert.KernelIdeal.Pairwise

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.LibSmallLayout.lean ====
/- Small layout operations read at an index written by coordinates, beyond the keepdims column forms.

   A column [a, 1] viewed as a vector [a]; a vector [a] viewed as [1, 1, a] and back; a matrix [a, b] viewed as
   [a, b, 1]; the broadcasts [a, b, 1] → [a, b, c] and [1, 1, c] → [a, b, c]; and the cast that merges the two
   leading axes of a rank-3 array, [a, b, c] viewed as [a·b, c], and its inverse: row i·b + j of the merged array
   is row (i, j) of the other. Every shape fact is a variable, so a lemma applies whatever proof term a program
   carries for it. -/
import Idealize.ShloMosaic.Lib.Pipeline.Value
import Idealize.ShloMosaic.Lib.ValueIdx

noncomputable section

namespace Cert.SmallLayout

open Idealize.ShloMosaic Idealize.ShloMosaic.ValueIdx

variable {α : Type}

/-- A column [a, 1] viewed as [a] reads, at r, the column at (r, 0). -/
theorem shapeCast_a1_a_apply {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- [1, 1, a] viewed as [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- [a] viewed as [1, 1, a] reads, at (u, v, i), the operand at i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]
    simp)

/-- A matrix [a, b] viewed as [a, b, 1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- [a, b, 1] broadcast along its last axis reads, at (i, j, k), the operand at (i, j, 0). -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun ax => match ax with
    | ⟨0, _⟩ => by
      have := i.isLt
      show i.val = if a = 1 then 0 else i.val
      split <;> omega
    | ⟨1, _⟩ => by
      have := j.isLt
      show j.val = if b = 1 then 0 else j.val
      split <;> omega
    | ⟨2, _⟩ => by
      show 0 = if (1 : ℕ) = 1 then 0 else k.val
      rw [if_pos rfl])

/-- [1, 1, c] broadcast over two leading axes reads, at (i, j, k), the operand at (0, 0, k). -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (fun ax => match ax with
    | ⟨0, _⟩ => by
      show 0 = if (1 : ℕ) = 1 then 0 else i.val
      rw [if_pos rfl]
    | ⟨1, _⟩ => by
      show 0 = if (1 : ℕ) = 1 then 0 else j.val
      rw [if_pos rfl]
    | ⟨2, _⟩ => by
      have := k.isLt
      show k.val = if c = 1 then 0 else k.val
      split <;> omega)

/-- [a, b, c] viewed as [m, c] with its two leading axes merged reads, at (row, k) with row = i·b + j, the operand
    at (i, j, k). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (row : Fin m)
    (hrow : row.val = i.val * b + j.val) :
    shapeCast ⟨2, ![m, c]⟩ x h (ix2 row k) = x (ix3 i j k) :=
  shapeCast_apply x h _ _ (by
    rw [Shape.rowMajor_val_three, Shape.rowMajor_val_two]
    show (i.val * b + j.val) * c + k.val = row.val * c + k.val
    rw [hrow])

/-- [m, c] viewed as [a, b, c] with its leading axis split reads, at (i, j, k), the operand at (row, k) with
    row = i·b + j. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (row : Fin m)
    (hrow : row.val = i.val * b + j.val) :
    shapeCast ⟨3, ![a, b, c]⟩ x h (ix3 i j k) = x (ix2 row k) :=
  shapeCast_apply x h _ _ (by
    rw [Shape.rowMajor_val_two, Shape.rowMajor_val_three]
    show row.val * c + k.val = (i.val * b + j.val) * c + k.val
    rw [hrow])

end Cert.SmallLayout

end
-- ==== Proof.TileValue.lean ====
/-
  The output tile at an index. At the exact values, the tile the body stores reads, at row point p, column point q
  and output unit o of the tile,

      Σ_h max( ((Σ_k r[k] · w1r[k,h] + b1[h]) + (xn[p,0] − xm[q,0]) · w1x[0,h]) + (xn[p,1] − xm[q,1]) · w1x[1,h], 0 ) · w2[h,o] + b2[o]

  over the eight blocks the body loads: every cast, slice and broadcast of the body only moves an entry to another
  position, the lane sum over the representation axis and the matrix product are finite sums, and a change of float
  format is the identity.
-/
import proofs.«143945_j27135603376524_1_alg».proof.Proof.IdealBody
import proofs.«143945_j27135603376524_1_alg».proof.Proof.LibDotPlain
import proofs.«143945_j27135603376524_1_alg».proof.Proof.LibKeepdims
import proofs.«143945_j27135603376524_1_alg».proof.Proof.LibSmallLayout
import Idealize.ShloMosaic.Lib.ValueLayout
import Idealize.ShloMosaic.PureOps.Ideal.Laws

noncomputable section

open scoped BigOperators

namespace Cert.KernelIdeal.TileValue

open Cert.KernelIdeal Cert.KernelIdeal.Gen
open Idealize.ShloMosaic Idealize.ShloMosaic.ValueIdx
open Cert.Keepdims Cert.SmallLayout Cert.DotPlain

variable (xn : Vec Ideal S1x128x2 .f32) (xm : Vec Ideal S1x64x2 .f32) (r : Vec Ideal S1x1x128 .f32)
  (w1x : Vec Ideal S2x128 .f32) (w1r : Vec Ideal S128x128 .f32) (b1 : Vec Ideal S128 .f32)
  (w2 : Vec Ideal S128x64 .f32) (b2 : Vec Ideal S64 .f32)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The loaded tiles without their unit axis -/

theorem rowTile_apply (p : Fin 128) (d : Fin 2) : k0_pay2 (F := Ideal) xn (ix2 p d) = xn (ix3 (0 : Fin 1) p d) := by
  unfold k0_pay2
  exact shapeCast_1ab_ab_apply xn _ p d

theorem colTile_apply (q : Fin 64) (d : Fin 2) : k0_pay3 (F := Ideal) xm (ix2 q d) = xm (ix3 (0 : Fin 1) q d) := by
  unfold k0_pay3
  exact shapeCast_1ab_ab_apply xm _ q d

theorem coordRows_eq : k0_pay4 (F := Ideal) w1x = w1x := by
  unfold k0_pay4
  exact shapeCast_self _ _

/-! ## Coordinate 1 of the row tile, broadcast along the columns; coordinate 1 of the column tile as a row -/

theorem rowCoord1_apply (p : Fin 128) (q : Fin 64) : k0_pay7 (F := Ideal) xn (ix2 p q) = xn (ix3 (0 : Fin 1) p (1 : Fin 2)) := by
  unfold k0_pay7
  rw [broadcastTo_a1_ab_apply, shapeCast_shapeCast, slice2_axis1_apply 1 _ _ p (0 : Fin 1) (1 : Fin 2) rfl, rowTile_apply]

theorem colCoord1_apply (u : Fin 1) (q : Fin 64) : k0_pay6 (F := Ideal) xm (ix2 u q) = xm (ix3 (0 : Fin 1) q (1 : Fin 2)) := by
  unfold k0_pay6
  rw [shapeCast_a_1a_apply, shapeCast_a1_a_apply, slice2_axis1_apply 1 _ _ q (0 : Fin 1) (1 : Fin 2) rfl, colTile_apply]

/-! ## The first layer up to the first coordinate's term -/

/-- The lane sum over the first axis of a 128 x 128 array, at column q: the sum over rows k of the array at (k, q).
    (The accumulator fact is stated as the printed term carries it.) -/
theorem laneSum_apply (src : FVec Ideal S128x128 .f32) (hr : S128x128.Reduces [0] S128) (hφ : FKind.Formats .f32)
    (hacc : (0x00000000#32 : BitVec 32) = 0x00000000#32) (q : Fin 128) :
    multiReduction .add [0] S128 src 0x00000000#32 hr hφ hacc (ix1 q) = ∑ k : Fin 128, src (ix2 k q) :=
  sum_first2_apply src 0x00000000#32 hr hφ hacc q

theorem partial_apply (p : Fin 128) (q : Fin 64) (h : Fin 128) :
    k0_pay5 (F := Ideal) xn xm r w1r b1 w1x (ix3 p q h)
      = ((∑ k : Fin 128, r (ix3 (0 : Fin 1) (0 : Fin 1) k) * w1r (ix2 k h)) + b1 (ix1 h))
        + (xn (ix3 (0 : Fin 1) p (0 : Fin 2)) - xm (ix3 (0 : Fin 1) q (0 : Fin 2))) * w1x (ix2 (0 : Fin 2) h) := by
  unfold k0_pay5
  rw [addf_apply, mulf_apply]
  -- the representation part, broadcast over the tile
  rw [broadcastTo_11c_abc_apply, shapeCast_a_11a_apply, addf_apply, laneSum_apply]
  -- the first coordinate's difference, broadcast along the hidden axis
  rw [broadcastTo_ab1_abc_apply, shapeCast_ab_ab1_apply, subf_apply, broadcastTo_a1_ab_apply, shapeCast_shapeCast,
    slice2_axis1_apply 0 _ _ p (0 : Fin 1) (0 : Fin 2) rfl, rowTile_apply,
    broadcastTo_1b_ab_apply, shapeCast_a_1a_apply, shapeCast_a1_a_apply,
    slice2_axis1_apply 0 _ _ q (0 : Fin 1) (0 : Fin 2) rfl, colTile_apply]
  -- the first coordinate's weight row
  rw [broadcastTo_11c_abc_apply, shapeCast_a_11a_apply, shapeCast_1a_a_apply,
    slice2_axis0_apply 0 _ _ (0 : Fin 1) h (0 : Fin 2) rfl, coordRows_eq]
  congr 2
  refine Finset.sum_congr rfl fun k _ => ?_
  rw [mulf_apply, broadcastTo_a1_ab_apply, shapeCast_a_a1_apply, shapeCast_11a_a_apply, shapeCast_self]

/-! ## The whole stored value -/

theorem tile_apply (v15 : FVec Ideal S2x128 .f32) (v34 : FVec Ideal S128x64x128 .f32) (v40 : FVec Ideal S1x64 .f32)
    (v41 : FVec Ideal S128x64 .f32) (p : Fin 128) (q : Fin 64) (o : Fin 64) :
    k0_pay1 (F := Ideal) v15 v34 v40 v41 w2 b2 (ix4 (0 : Fin 1) p q o)
      = (∑ h : Fin 128, max (v34 (ix3 p q h) + (v41 (ix2 p q) - v40 (ix2 (0 : Fin 1) q)) * v15 (ix2 (1 : Fin 2) h)) 0 * w2 (ix2 h o))
        + b2 (ix1 o) := by
  unfold k0_pay1
  rw [shapeCast_abc_1abc_apply,
    shapeCast_mc_abc_apply _ _ p q o (⟨p.val * 64 + q.val, by have := p.isLt; have := q.isLt; omega⟩ : Fin 8192) rfl,
    addf_apply, broadcastTo_1b_ab_apply, shapeCast_a_1a_apply]
  simp only [matmul]
  rw [matmul_zero_rows_cols _ rfl rfl rfl rfl rfl rfl]
  congr 1
  refine Finset.sum_congr rfl fun h _ => ?_
  rw [truncf_apply, truncf_apply,
    shapeCast_abc_mc_apply _ _ p q h (⟨p.val * 64 + q.val, by have := p.isLt; have := q.isLt; omega⟩ : Fin 8192) rfl,
    maximumf_apply, addf_apply, mulf_apply, broadcast_apply,
    broadcastTo_ab1_abc_apply, shapeCast_ab_ab1_apply, subf_apply, broadcastTo_1b_ab_apply,
    broadcastTo_11c_abc_apply, shapeCast_a_11a_apply, shapeCast_1a_a_apply,
    slice2_axis0_apply 1 _ _ (0 : Fin 1) h (1 : Fin 2) rfl]
  show max _ (Ideal.ofBits .f32 0x00000000#32) * _ = _
  rw [Ideal.ofBits_zero_f32]

/-- The stored tile at (0, p, q, o), from the eight loaded blocks. -/
theorem outTile_apply (p : Fin 128) (q : Fin 64) (o : Fin 64) :
    Cert.KernelIdeal.Pairwise.outTile (F := Ideal) xn xm r w1x w1r b1 w2 b2 (ix4 (0 : Fin 1) p q o)
      = (∑ h : Fin 128, max ((((∑ k : Fin 128, r (ix3 (0 : Fin 1) (0 : Fin 1) k) * w1r (ix2 k h)) + b1 (ix1 h))
            + (xn (ix3 (0 : Fin 1) p (0 : Fin 2)) - xm (ix3 (0 : Fin 1) q (0 : Fin 2))) * w1x (ix2 (0 : Fin 2) h))
            + (xn (ix3 (0 : Fin 1) p (1 : Fin 2)) - xm (ix3 (0 : Fin 1) q (1 : Fin 2))) * w1x (ix2 (1 : Fin 2) h)) 0 * w2 (ix2 h o))
        + b2 (ix1 o) := by
  unfold Cert.KernelIdeal.Pairwise.outTile
  rw [View.canon_unit_zero hz4]
  simp only [View.ld_unit_zero (S := S1x128x2) hz3, View.ld_unit_zero (S := S1x64x2) hz3, View.ld_unit_zero (S := S1x1x128) hz3,
    View.ld_unit_zero (S := S2x128) hz2, View.ld_unit_zero (S := S128x128) hz2, View.ld_unit_zero (S := S128) hz1,
    View.ld_unit_zero (S := S128x64) hz2, View.ld_unit_zero (S := S64) hz1]
  rw [tile_apply]
  congr 1
  refine Finset.sum_congr rfl fun h _ => ?_
  rw [partial_apply, rowCoord1_apply, colCoord1_apply, coordRows_eq]

end Cert.KernelIdeal.TileValue

end
-- ==== Proof.Spec.lean ====
/-
  The pairwise decoder, as mathematics. For a batch b, a row point n and a column point m of the context set, the
  feature vector is the two coordinate differences x[b,n,·] − x[b,m,·] followed by the batch's 128 representation
  entries r[b,·]; the first layer is feature · W1 + b1, rectified; the second layer is · W2 + b2.

  The contraction over the 130 features splits into the two difference terms and the 128 representation terms. The
  kernel groups the first layer as ((representation part + bias) + first difference term) + second difference term;
  on the extended reals addition is commutative and associative, so the two groupings are one value, at infinities too
  (no distributivity and no cancellation is used, so nothing here needs the inputs finite).
-/
import Idealize.ShloMosaic.PureOps.Ideal
import Idealize.ShloMosaic.Lib.ValueIdx
import Mathlib.Algebra.BigOperators.Fin
import Mathlib.Tactic.Abel

noncomputable section

open scoped BigOperators

namespace Cert.PairwiseSpec

open Idealize.ShloMosaic Idealize.ShloMosaic.ValueIdx

abbrev SR : Shape := ⟨2, ![4, 128]⟩
abbrev SX : Shape := ⟨3, ![4, 384, 2]⟩
abbrev SW1 : Shape := ⟨2, ![130, 128]⟩
abbrev SB1 : Shape := ⟨1, ![128]⟩
abbrev SW2 : Shape := ⟨2, ![128, 64]⟩
abbrev SB2 : Shape := ⟨1, ![64]⟩
abbrev SOut : Shape := ⟨4, ![4, 384, 384, 64]⟩

variable (r : SR.Idx → EReal) (x : SX.Idx → EReal) (W1 : SW1.Idx → EReal) (b1 : SB1.Idx → EReal)
  (W2 : SW2.Idx → EReal) (b2 : SB2.Idx → EReal)

/-- The representation's part of hidden unit h for batch b, with the bias: Σ_k r[b,k] · W1[2+k,h] + b1[h]. -/
def repTerm (b : Fin 4) (h : Fin 128) : EReal :=
  (∑ k : Fin 128, r (ix2 b k) * W1 (ix2 (Fin.natAdd 2 k) h)) + b1 (ix1 h)

/-- Coordinate d's part: (x[b,n,d] − x[b,m,d]) · W1[d,h]. -/
def diffTerm (b : Fin 4) (n mm : Fin 384) (d : Fin 2) (h : Fin 128) : EReal :=
  (x (ix3 b n d) - x (ix3 b mm d)) * W1 (ix2 (Fin.castAdd 128 d) h)

/-- Hidden unit h before rectification, in the kernel's grouping. -/
def hid (b : Fin 4) (n mm : Fin 384) (h : Fin 128) : EReal :=
  (repTerm r W1 b1 b h + diffTerm x W1 b n mm 0 h) + diffTerm x W1 b n mm 1 h

/-- The decoder's output at (b, n, m, o): Σ_h max(hid h, 0) · W2[h,o] + b2[o]. -/
def G : SOut.Idx → EReal := fun i =>
  (∑ h : Fin 128, max (hid r x W1 b1 (i 0) (i 1) (i 2) h) 0 * W2 (ix2 h (i 3))) + b2 (ix1 (i 3))

/-- Feature d of the pair (n, m) of batch b: a coordinate difference for d < 2, a representation entry from 2 on. -/
def feat (b : Fin 4) (n mm : Fin 384) (d : Fin 130) : EReal :=
  if hd : d.val < 2 then x (ix3 b n ⟨d.val, hd⟩) - x (ix3 b mm ⟨d.val, hd⟩) else r (ix2 b ⟨d.val - 2, by omega⟩)

theorem feat_castAdd (b : Fin 4) (n mm : Fin 384) (d : Fin 2) :
    feat r x b n mm (Fin.castAdd 128 d) = x (ix3 b n d) - x (ix3 b mm d) := by
  unfold feat
  rw [dif_pos (show (Fin.castAdd 128 d).val < 2 from d.isLt)]
  rfl

theorem feat_natAdd (b : Fin 4) (n mm : Fin 384) (k : Fin 128) :
    feat r x b n mm (Fin.natAdd 2 k) = r (ix2 b k) := by
  unfold feat
  rw [dif_neg (show ¬ (Fin.natAdd 2 k).val < 2 by rw [Fin.coe_natAdd]; omega)]
  congr 2
  apply Fin.ext
  show 2 + k.val - 2 = k.val
  omega

/-- The reference's first layer — the contraction of the 130 features with W1, plus the bias — is the kernel's grouping. -/
theorem contraction_eq_hid (b : Fin 4) (n mm : Fin 384) (h : Fin 128) :
    (∑ d : Fin 130, feat r x b n mm d * W1 (ix2 d h)) + b1 (ix1 h) = hid r x W1 b1 b n mm h := by
  unfold hid repTerm diffTerm
  have hsplit : (∑ d : Fin 130, feat r x b n mm d * W1 (ix2 d h))
      = (∑ d : Fin 2, feat r x b n mm (Fin.castAdd 128 d) * W1 (ix2 (Fin.castAdd 128 d) h))
        + ∑ k : Fin 128, feat r x b n mm (Fin.natAdd 2 k) * W1 (ix2 (Fin.natAdd 2 k) h) :=
    Fin.sum_univ_add (a := 2) (b := 128) (fun d => feat r x b n mm d * W1 (ix2 d h))
  rw [hsplit, Fin.sum_univ_two]
  simp only [feat_castAdd, feat_natAdd]
  abel

end Cert.PairwiseSpec

end
-- ==== Proof.IdealValue.lean ====
/-
  From tiles to the whole output array, for the idealized kernel. Grid point t = (b, ni, mi) reads rows
  ni·128 … ni·128+127 and rows mi·64 … mi·64+63 of batch b of the context array (its row tile and its column tile), the
  batch's representation row, and the whole of the five small arrays; what it writes back is block (b, ni, mi, 0) of the
  specification's array, and the 72 blocks tile the output.
-/
import proofs.«143945_j27135603376524_1_alg».proof.Proof.IdealRun
import proofs.«143945_j27135603376524_1_alg».proof.Proof.TileValue
import proofs.«143945_j27135603376524_1_alg».proof.Proof.Spec
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.ArrayValue

open Cert.KernelIdeal Cert.KernelIdeal.Gen Cert.KernelIdeal.Pairwise Cert.KernelIdeal.TileValue Cert.PairwiseSpec
open Idealize.ShloMosaic Idealize.ShloMosaic.TcCoe Idealize.ShloMosaic.ValueIdx Idealize.SL.Sem
open Idealize.ShloMosaic.StableHlo
open Idealize.ShloMosaic.Pipeline (Dat)
open Cert.Keepdims

variable (m : (ℓ : Loc nD τ sig) → Buf (Elt Ideal) ℓ) (ρ : Dev nD → PrngReg)

/-! ## The six arrays the computation reads, as launched -/

abbrev rA (c : Dev nD) : SR.Idx → EReal := m ((c : Thread nD τ).loc main_arg0)
abbrev xA (c : Dev nD) : SX.Idx → EReal := m ((c : Thread nD τ).loc main_arg1)
abbrev w1A (c : Dev nD) : SW1.Idx → EReal := m ((c : Thread nD τ).loc main_arg4)
abbrev b1A (c : Dev nD) : SB1.Idx → EReal := m ((c : Thread nD τ).loc main_arg5)
abbrev w2A (c : Dev nD) : SW2.Idx → EReal := m ((c : Thread nD τ).loc main_arg6)
abbrev b2A (c : Dev nD) : SB2.Idx → EReal := m ((c : Thread nD τ).loc main_arg7)

/-! ## What the host lines before the region wrote -/

theorem V_coordRows (c : Dev nD) : (V m c main_v0 : S2x128.Idx → EReal)
    = extractStridedSlice S2x128 ![0, 0] (w1A m c) slices_S130x128_S2x128_0_0 := by
  dsimp only [V, hostOps0]; after_results <;> rfl

theorem V_repRows (c : Dev nD) : (V m c main_v1 : S128x128.Idx → EReal)
    = extractStridedSlice S128x128 ![2, 0] (w1A m c) slices_S130x128_S128x128_2_0 := by
  dsimp only [V, hostOps0]; after_results <;> rfl

theorem V_rep3 (c : Dev nD) : (V m c main_v2 : S4x1x128.Idx → EReal)
    = shapeCast S4x1x128 (rA m c) shapeCasts_S4x128_S4x1x128 := by
  dsimp only [V, hostOps0]; after_results <;> rfl

/-! ## The index maps, decided over the grid -/

theorem idx_facts : ∀ t : Fin cfg0.N,
    win0_0.index t (0 : Fin 3) = win0_8.index t (0 : Fin 4) ∧ win0_0.index t (1 : Fin 3) = win0_8.index t (1 : Fin 4) ∧ win0_0.index t (2 : Fin 3) = 0
    ∧ win0_1.index t (0 : Fin 3) = win0_8.index t (0 : Fin 4) ∧ win0_1.index t (1 : Fin 3) = win0_8.index t (2 : Fin 4) ∧ win0_1.index t (2 : Fin 3) = 0
    ∧ win0_2.index t (0 : Fin 3) = win0_8.index t (0 : Fin 4) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 4) ≤ 3 ∧ win0_8.index t (1 : Fin 4) ≤ 2 ∧ win0_8.index t (2 : Fin 4) ≤ 5 ∧ win0_8.index t (3 : Fin 4) = 0 :=
  (by decide +kernel : ∀ t : Fin grid0.N, _)

/-- Every block of the output is some point's. -/
theorem idx_onto : ∀ (q0 : Fin 4) (q1 : Fin 3) (q2 : Fin 6), ∃ t : Fin cfg0.N, win0_8.index t = ![q0.val, q1.val, q2.val, 0] :=
  (by decide +kernel : ∀ (q0 : Fin 4) (q1 : Fin 3) (q2 : Fin 6), ∃ t : Fin grid0.N, win0_8.index t = ![q0.val, q1.val, q2.val, 0])

/-! ## The blocks a point reads -/

theorem rowBlock_apply (c : Dev nD) (t : Fin cfg0.N) (p : Fin 128) (d : Fin 2) (B : Fin 4) (N : Fin 384)
    (hB : B.val = win0_8.index t (0 : Fin 4)) (hN : N.val = win0_8.index t (1 : Fin 4) * 128 + p.val) :
    iblk m c 0 t (ix3 (0 : Fin 1) p d) = xA m c (ix3 B N d) := by
  obtain ⟨e0, e1, e2, -⟩ := idx_facts t
  show V m c main_arg1 (((cfg0.win 0).blk t).view.emb (ix3 (0 : Fin 1) p d)) = _
  rw [V_main_arg1]
  refine congrArg (m ((c : Thread nD τ).loc main_arg1)) (funext fun a => Fin.ext ?_)
  match a with
  | ⟨0, _⟩ => show win0_0.index t (0 : Fin 3) * 1 + 1 * 0 = B.val; omega
  | ⟨1, _⟩ => show win0_0.index t (1 : Fin 3) * 128 + 1 * p.val = N.val; omega
  | ⟨2, _⟩ => show win0_0.index t (2 : Fin 3) * 2 + 1 * d.val = d.val; omega

theorem colBlock_apply (c : Dev nD) (t : Fin cfg0.N) (q : Fin 64) (d : Fin 2) (B : Fin 4) (M : Fin 384)
    (hB : B.val = win0_8.index t (0 : Fin 4)) (hM : M.val = win0_8.index t (2 : Fin 4) * 64 + q.val) :
    iblk m c 1 t (ix3 (0 : Fin 1) q d) = xA m c (ix3 B M d) := by
  obtain ⟨-, -, -, e3, e4, e5, -⟩ := idx_facts t
  show V m c main_arg1 (((cfg0.win 1).blk t).view.emb (ix3 (0 : Fin 1) q d)) = _
  rw [V_main_arg1]
  refine congrArg (m ((c : Thread nD τ).loc main_arg1)) (funext fun a => Fin.ext ?_)
  match a with
  | ⟨0, _⟩ => show win0_1.index t (0 : Fin 3) * 1 + 1 * 0 = B.val; omega
  | ⟨1, _⟩ => show win0_1.index t (1 : Fin 3) * 64 + 1 * q.val = M.val; omega
  | ⟨2, _⟩ => show win0_1.index t (2 : Fin 3) * 2 + 1 * d.val = d.val; omega

theorem repBlock_apply (c : Dev nD) (t : Fin cfg0.N) (k : Fin 128) (B : Fin 4) (hB : B.val = win0_8.index t (0 : Fin 4)) :
    iblk m c 2 t (ix3 (0 : Fin 1) (0 : Fin 1) k) = rA m c (ix2 B k) := by
  obtain ⟨-, -, -, -, -, -, e6, e7, e8, -⟩ := idx_facts t
  show V m c main_v2 (((cfg0.win 2).blk t).view.emb (ix3 (0 : Fin 1) (0 : Fin 1) k)) = _
  rw [V_rep3]
  have hi : ((cfg0.win 2).blk t).view.emb (ix3 (0 : Fin 1) (0 : Fin 1) k) = ix3 B (0 : Fin 1) k := funext fun a => Fin.ext (by
    match a with
    | ⟨0, _⟩ => show win0_2.index t (0 : Fin 3) * 1 + 1 * 0 = B.val; omega
    | ⟨1, _⟩ => show win0_2.index t (1 : Fin 3) * 1 + 1 * 0 = 0; omega
    | ⟨2, _⟩ => show win0_2.index t (2 : Fin 3) * 128 + 1 * k.val = k.val; omega)
  rw [hi]
  exact shapeCast_ac_a1c_apply (rA m c) _ B (0 : Fin 1) k

theorem coordRowsBlock_apply (c : Dev nD) (t : Fin cfg0.N) (d : Fin 2) (h : Fin 128) :
    iblk m c 3 t (ix2 d h) = w1A m c (ix2 (Fin.castAdd 128 d) h) := by
  obtain ⟨-, -, -, -, -, -, -, -, -, e9, e10, -⟩ := idx_facts t
  show V m c main_v0 (((cfg0.win 3).blk t).view.emb (ix2 d h)) = _
  rw [V_coordRows]
  have hi : ((cfg0.win 3).blk t).view.emb (ix2 d h) = ix2 d h := funext fun a => Fin.ext (by
    match a with
    | ⟨0, _⟩ => show win0_3.index t (0 : Fin 2) * 2 + 1 * d.val = d.val; omega
    | ⟨1, _⟩ => show win0_3.index t (1 : Fin 2) * 128 + 1 * h.val = h.val; omega)
  rw [hi]
  exact slice2_axis0_apply 0 (w1A m c) _ d h (Fin.castAdd 128 d) (by show d.val = 0 + d.val; omega)

theorem repRowsBlock_apply (c : Dev nD) (t : Fin cfg0.N) (k h : Fin 128) :
    iblk m c 4 t (ix2 k h) = w1A m c (ix2 (Fin.natAdd 2 k) h) := by
  obtain ⟨-, -, -, -, -, -, -, -, -, -, -, e11, e12, -⟩ := idx_facts t
  show V m c main_v1 (((cfg0.win 4).blk t).view.emb (ix2 k h)) = _
  rw [V_repRows]
  have hi : ((cfg0.win 4).blk t).view.emb (ix2 k h) = ix2 k h := funext fun a => Fin.ext (by
    match a with
    | ⟨0, _⟩ => show win0_4.index t (0 : Fin 2) * 128 + 1 * k.val = k.val; omega
    | ⟨1, _⟩ => show win0_4.index t (1 : Fin 2) * 128 + 1 * h.val = h.val; omega)
  rw [hi]
  exact slice2_axis0_apply 2 (w1A m c) _ k h (Fin.natAdd 2 k) rfl

theorem b1Block_apply (c : Dev nD) (t : Fin cfg0.N) (h : Fin 128) : iblk m c 5 t (ix1 h) = b1A m c (ix1 h) := by
  obtain ⟨-, -, -, -, -, -, -, -, -, -, -, -, -, e13, -⟩ := idx_facts t
  show V m c main_arg5 (((cfg0.win 5).blk t).view.emb (ix1 h)) = _
  rw [V_main_arg5]
  refine congrArg (m ((c : Thread nD τ).loc main_arg5)) (funext fun a => Fin.ext ?_)
  match a with
  | ⟨0, _⟩ => show win0_5.index t (0 : Fin 1) * 128 + 1 * h.val = h.val; omega

theorem w2Block_apply (c : Dev nD) (t : Fin cfg0.N) (h : Fin 128) (o : Fin 64) : iblk m c 6 t (ix2 h o) = w2A m c (ix2 h o) := by
  obtain ⟨-, -, -, -, -, -, -, -, -, -, -, -, -, -, e14, e15, -⟩ := idx_facts t
  show V m c main_arg6 (((cfg0.win 6).blk t).view.emb (ix2 h o)) = _
  rw [V_main_arg6]
  refine congrArg (m ((c : Thread nD τ).loc main_arg6)) (funext fun a => Fin.ext ?_)
  match a with
  | ⟨0, _⟩ => show win0_6.index t (0 : Fin 2) * 128 + 1 * h.val = h.val; omega
  | ⟨1, _⟩ => show win0_6.index t (1 : Fin 2) * 64 + 1 * o.val = o.val; omega

theorem b2Block_apply (c : Dev nD) (t : Fin cfg0.N) (o : Fin 64) : iblk m c 7 t (ix1 o) = b2A m c (ix1 o) := by
  obtain ⟨-, -, -, -, -, -, -, -, -, -, -, -, -, -, -, -, e16, -⟩ := idx_facts t
  show V m c main_arg7 (((cfg0.win 7).blk t).view.emb (ix1 o)) = _
  rw [V_main_arg7]
  refine congrArg (m ((c : Thread nD τ).loc main_arg7)) (funext fun a => Fin.ext ?_)
  match a with
  | ⟨0, _⟩ => show win0_7.index t (0 : Fin 1) * 64 + 1 * o.val = o.val; omega

/-! ## What a point writes back -/

/-- What point t writes back is block t of the specification's array of the launch contents. -/
theorem flushed_eq (c : Dev nD) (t : Fin cfg0.N) :
    (dats m 0 c).flushed 8 t
      = ((cfg0.win 8).blk t).view.read (Elt Ideal) (G (rA m c) (xA m c) (w1A m c) (b1A m c) (w2A m c) (b2A m c)) := by
  show (cfg0.win 8).cut (grid0.coords t) ((dats m 0 c).after 8 t) = _
  rw [after_8]
  funext y
  obtain ⟨u, p, q, o, rfl⟩ : ∃ (u : Fin 1) (p : Fin 128) (q o : Fin 64), y = ix4 u p q o := ⟨y 0, y 1, y 2, y 3, eq_ix4 y⟩
  obtain rfl : u = 0 := Subsingleton.elim _ _
  show outTile (F := Ideal) (iblk m c 0 t) (iblk m c 1 t) (iblk m c 2 t) (iblk m c 3 t) (iblk m c 4 t) (iblk m c 5 t) (iblk m c 6 t) (iblk m c 7 t) (ix4 (0 : Fin 1) p q o)
      = G (rA m c) (xA m c) (w1A m c) (b1A m c) (w2A m c) (b2A m c) (((cfg0.win 8).blk t).view.emb (ix4 (0 : Fin 1) p q o))
  refine (outTile_apply (iblk m c 0 t) (iblk m c 1 t) (iblk m c 2 t) (iblk m c 3 t) (iblk m c 4 t) (iblk m c 5 t) (iblk m c 6 t) (iblk m c 7 t) p q o).trans ?_
  obtain ⟨-, -, -, -, -, -, -, -, -, -, -, -, -, -, -, -, -, e17, e18, e19, e20⟩ := idx_facts t
  have hp := p.isLt
  have hq := q.isLt
  -- the output index this entry of the block lands on: (b, ni·128 + p, mi·64 + q, o)
  obtain ⟨B, hB⟩ : ∃ B : Fin 4, B.val = win0_8.index t (0 : Fin 4) := ⟨⟨win0_8.index t (0 : Fin 4), by omega⟩, rfl⟩
  obtain ⟨N, hN⟩ : ∃ N : Fin 384, N.val = win0_8.index t (1 : Fin 4) * 128 + p.val := ⟨⟨win0_8.index t (1 : Fin 4) * 128 + p.val, by omega⟩, rfl⟩
  obtain ⟨M, hM⟩ : ∃ M : Fin 384, M.val = win0_8.index t (2 : Fin 4) * 64 + q.val := ⟨⟨win0_8.index t (2 : Fin 4) * 64 + q.val, by omega⟩, rfl⟩
  have hI : ((cfg0.win 8).blk t).view.emb (ix4 (0 : Fin 1) p q o) = ix4 B N M o := funext fun a => Fin.ext (by
    match a with
    | ⟨0, _⟩ => show win0_8.index t (0 : Fin 4) * 1 + 1 * 0 = B.val; omega
    | ⟨1, _⟩ => show win0_8.index t (1 : Fin 4) * 128 + 1 * p.val = N.val; omega
    | ⟨2, _⟩ => show win0_8.index t (2 : Fin 4) * 64 + 1 * q.val = M.val; omega
    | ⟨3, _⟩ => show win0_8.index t (3 : Fin 4) * 64 + 1 * o.val = o.val; omega)
  rw [hI]
  have exn : ∀ d : Fin 2, iblk m c 0 t (ix3 (0 : Fin 1) p d) = xA m c (ix3 B N d) := fun d => rowBlock_apply m c t p d B N hB hN
  have exm : ∀ d : Fin 2, iblk m c 1 t (ix3 (0 : Fin 1) q d) = xA m c (ix3 B M d) := fun d => colBlock_apply m c t q d B M hB hM
  have er : ∀ k : Fin 128, iblk m c 2 t (ix3 (0 : Fin 1) (0 : Fin 1) k) = rA m c (ix2 B k) := fun k => repBlock_apply m c t k B hB
  simp only [exn, exm, er, coordRowsBlock_apply, repRowsBlock_apply, b1Block_apply, w2Block_apply, b2Block_apply]
  rfl

/-! ## The blocks tile the output -/

/-- An index of the output is in point t's block iff each coordinate is in the block's range on its axis. -/
theorem mem_blk (t : Fin cfg0.N) (i : S4x384x384x64.Idx) :
    i ∈ ((cfg0.win 8).blk t).view.set ↔ ∀ a : Fin 4, win0_8.index t a * S1x128x64x64.size a ≤ (i a).val
      ∧ (i a).val < win0_8.index t a * S1x128x64x64.size a + S1x128x64x64.size a := by
  show i ∈ ((View.whole main_v3).slice (win0_8.rect t)).set ↔ _
  rw [View.set_slice_whole, Rect.mem_set_unit]
  exact Iff.rfl

/-- Every index of the output is in some point's block: the point of its batch, its row tile and its column tile. -/
theorem cover (i : S4x384x384x64.Idx) : ∃ t : Fin cfg0.N, (cfg0.win 8).flush t = true ∧ i ∈ ((cfg0.win 8).blk t).view.set := by
  have h0 : (i 0).val < 4 := (i 0).isLt
  have h1 : (i 1).val < 384 := (i 1).isLt
  have h2 : (i 2).val < 384 := (i 2).isLt
  have h3 : (i 3).val < 64 := (i 3).isLt
  obtain ⟨t, ht⟩ := idx_onto ⟨(i 0).val, h0⟩ ⟨(i 1).val / 128, by omega⟩ ⟨(i 2).val / 64, by omega⟩
  have q0 : win0_8.index t (0 : Fin 4) = (i 0).val := congrFun ht 0
  have q1 : win0_8.index t (1 : Fin 4) = (i 1).val / 128 := congrFun ht 1
  have q2 : win0_8.index t (2 : Fin 4) = (i 2).val / 64 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 128 ≤ (i 1).val ∧ (i 1).val < win0_8.index t (1 : Fin 4) * 128 + 128; omega
  | ⟨2, _⟩ => show win0_8.index t (2 : Fin 4) * 64 ≤ (i 2).val ∧ (i 2).val < win0_8.index t (2 : Fin 4) * 64 + 64; omega
  | ⟨3, _⟩ => show win0_8.index t (3 : Fin 4) * 64 ≤ (i 3).val ∧ (i 3).val < win0_8.index t (3 : Fin 4) * 64 + 64; omega

/-- The output array after the run is the specification's array of the launch contents. -/
theorem final (c : Dev nD) : (dats m 0 c).arrAt 8 cfg0.N = G (rA m c) (xA m c) (w1A m c) (b1A m c) (w2A m c) (b2A m c) :=
  (dats m 0 c).arrAt_eq_of_cover 8 _ (fun t _ => flushed_eq m c t) cover

/-! ## The run, read -/

/-- Every weakly fair execution of the idealized kernel ends with its result at the specification's array of the
    launch contents and its arguments unchanged. -/
theorem run : θ_run defs (onTc (τ := τ) (main (F := Ideal))) ⟨m, fun _ => 0, ρ⟩ fun r => ∀ c : Dev nD,
      r.2.mem ((c.tc : Thread nD τ).loc main_v3) = G (rA m c) (xA m c) (w1A m c) (b1A m c) (w2A m c) (b2A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 8).trans (final m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩) (run_main m ρ)

end Cert.KernelIdeal.ArrayValue

end
-- ==== Proof.RefValue.lean ====
/-
  The reference, read at an index. Its feature array is the concatenation of the pairwise coordinate differences and
  the broadcast representation: entry d of the pair (n, m) of batch b is x[b,n,d] − x[b,m,d] for d < 2 and r[b,d−2]
  from 2 on. Its first layer is the contraction of that array with W1 plus the bias, which is the specification's
  hidden unit by the regrouping law; rectified and contracted with W2, plus the second bias, it is the specification.
-/
import proofs.«143945_j27135603376524_1_alg».proof.Proof.Gen.ReferenceIdeal.Read
import proofs.«143945_j27135603376524_1_alg».proof.Proof.Spec
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.PairwiseSpec
open Idealize.ShloMosaic Idealize.ShloMosaic.ValueIdx

variable (x0 : (⟨S4x128, .f32⟩ : BufTy).Contents (Elt Ideal)) (x1 : (⟨S4x384x2, .f32⟩ : BufTy).Contents (Elt Ideal))
  (x4 : (⟨S130x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-- The concatenated feature array at (b, n, m, d) is feature d of the pair (n, m) of batch b. -/
theorem feature_apply (b : Fin 4) (n mm : Fin 384) (d : Fin 130) :
    val_main_v7 (F := Ideal) x0 x1 (ix4 b n mm d) = feat x0 x1 b n mm d := by
  unfold val_main_v7 feat
  by_cases hd : d.val < 2
  · rw [dif_pos hd]
    rw [concatenate_pair_apply_left (t := S4x384x384x130) (s₁ := S4x384x384x2) (s₂ := S4x384x384x128) (3 : Fin 4) _ _ _ (ix4 b n mm d) rfl (ix4 b n mm (⟨d.val, hd⟩ : Fin 2)) (fun ax => by match ax with | ⟨0, _⟩ => rfl | ⟨1, _⟩ => rfl | ⟨2, _⟩ => rfl | ⟨3, _⟩ => rfl)]
    rw [val_main_v4_apply, val_main_v2_apply, val_main_v0_apply, val_main_v3_apply, val_main_v1_apply]
    show x1 _ - x1 _ = _
    congr 2 <;> exact funext (fun ax => by match ax with | ⟨0, _⟩ => rfl | ⟨1, _⟩ => rfl | ⟨2, _⟩ => rfl)
  · rw [dif_neg hd]
    rw [concatenate_pair_apply_right (t := S4x384x384x130) (s₁ := S4x384x384x2) (s₂ := S4x384x384x128) (3 : Fin 4) _ _ _ (ix4 b n mm d) rfl rfl
      (ix4 b n mm (⟨d.val - 2, by have := d.isLt; omega⟩ : Fin 128)) (fun ax hne => by
        match ax with
        | ⟨0, _⟩ => rfl
        | ⟨1, _⟩ => rfl
        | ⟨2, _⟩ => rfl
        | ⟨3, _⟩ => exact absurd rfl hne) (by show d.val - 2 + 2 = d.val; omega)]
    rw [val_main_v6_apply, val_main_v5_apply]
    exact congrArg x0 (funext (fun ax => by match ax with | ⟨0, _⟩ => rfl | ⟨1, _⟩ => rfl))

/-- The reference's first layer before rectification is the specification's hidden unit. -/
theorem hidden_apply (b : Fin 4) (n mm : Fin 384) (h : Fin 128) :
    val_main_v11 (F := Ideal) x0 x1 x4 x5 (ix4 b n mm h) = hid x0 x1 x4 x5 b n mm h := by
  rw [val_main_v11_apply, val_main_v8_apply, val_main_v10_apply, val_main_v9_apply, ← contraction_eq_hid]
  show (∑ k : Fin 130, _) + _ = _
  congr 1
  · refine Finset.sum_congr rfl fun k _ => ?_
    rw [show lidx_main_v8 (ix4 b n mm h) k = ix4 b n mm k from funext (fun ax => by match ax with | ⟨0, _⟩ => rfl | ⟨1, _⟩ => rfl | ⟨2, _⟩ => rfl | ⟨3, _⟩ => rfl), feature_apply]
    exact congrArg (feat x0 x1 b n mm k * ·) (congrArg x4 (funext (fun ax => by match ax with | ⟨0, _⟩ => rfl | ⟨1, _⟩ => rfl)))
  · exact congrArg x5 (funext (fun ax => by match ax with | ⟨0, _⟩ => rfl))

/-- The reference's result is the specification. -/
theorem ref_eq_G : val_main_v16 (F := Ideal) x0 x1 x4 x5 x6 x7 = G x0 x1 x4 x5 x6 x7 := by
  funext i
  obtain ⟨b, n, mm, o, rfl⟩ : ∃ (b : Fin 4) (n mm : Fin 384) (o : Fin 64), i = ix4 b n mm o := ⟨i 0, i 1, i 2, i 3, eq_ix4 i⟩
  rw [val_main_v16_apply, val_main_v13_apply, val_main_v15_apply, val_main_v14_apply]
  unfold G
  show (∑ k : Fin 128, _) + _ = (∑ h : Fin 128, _) + _
  congr 1
  · refine Finset.sum_congr rfl fun h _ => ?_
    rw [show lidx_main_v13 (ix4 b n mm o) h = ix4 b n mm h from funext (fun ax => by match ax with | ⟨0, _⟩ => rfl | ⟨1, _⟩ => rfl | ⟨2, _⟩ => rfl | ⟨3, _⟩ => rfl), val_main_v12_apply, hidden_apply,
      val_main_call0_v0_apply, val_main_call0_cst_apply]
    show max _ (Ideal.ofBits .f32 0x00000000#32) * _ = _
    rw [Ideal.ofBits_zero_f32]
    exact congrArg (max (hid x0 x1 x4 x5 b n mm h) 0 * ·) (congrArg x6 (funext (fun ax => by match ax with | ⟨0, _⟩ => rfl | ⟨1, _⟩ => rfl)))
  · exact congrArg x7 (funext (fun ax => by match ax with | ⟨0, _⟩ => rfl))

end Cert.ReferenceIdeal.RefValue

end
-- ==== Proof.lean ====
/-
  The pairwise decoder kernel against its reference.

  For every batch b and every pair (n, m) of context points both compute

      out[b,n,m,·] = max( [x[b,n,·] − x[b,m,·], r[b,·]] · W1 + b1, 0 ) · W2 + b2 .

  The reference builds the 130-entry feature vector of every pair and contracts it with W1. The kernel never builds
  it: per tile of 128 row points by 64 column points it adds, to the batch's representation part r[b,·] · W1[2:,·] + b1
  (computed once per tile by a lane sum), the two coordinate differences times their rows of W1, rectifies, and
  multiplies by W2 on the matrix unit in a narrower float format. At the exact values the change of format is the
  identity, the lane sum and the matrix products are finite sums, and the two first layers differ only in the order
  and grouping of one sum, which on the extended reals changes nothing (infinities included), so the precondition is
  never opened.

  The kernel reads its row tile and its column tile through two windows on the one context array; its frame is the
  region launch for input windows that share an array, with that array's share cut in two halves. The reference has
  no kernel: its frame is its run with the result dropped.
-/
import proofs.«143945_j27135603376524_1_alg».proof.Defs
import proofs.«143945_j27135603376524_1_alg».proof.Proof.Gen.Kernel
import proofs.«143945_j27135603376524_1_alg».proof.Proof.Gen.KernelIdeal
import proofs.«143945_j27135603376524_1_alg».proof.Proof.Gen.ReferenceIdeal
import proofs.«143945_j27135603376524_1_alg».proof.Proof.Gen.Pre_finite_inputs
import proofs.«143945_j27135603376524_1_alg».proof.Proof.BitsRun
import proofs.«143945_j27135603376524_1_alg».proof.Proof.IdealValue
import proofs.«143945_j27135603376524_1_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_kernel : Cert.frame_Kernel := fun m ρ _ => Cert.Kernel.Pairwise.frame m ρ

/-- So does the kernel read at the exact values. -/
theorem frame_kernelIdeal : Cert.frame_KernelIdeal := fun m ρ _ => Cert.KernelIdeal.Pairwise.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote no operation: the idealized kernel is the kernel's own text read at the exact values. -/
theorem preserves : Cert.preserves_Kernel_KernelIdeal := trivial

/-- Both programs end with their result at the specification's array of the arguments. -/
theorem algebraic : Cert.algebraic_KernelIdeal_ReferenceIdeal := by
  intro m ρ m' ρ' _ hagree
  refine ⟨fun c => Cert.PairwiseSpec.G (Cert.KernelIdeal.ArrayValue.rA m c) (Cert.KernelIdeal.ArrayValue.xA m c) (Cert.KernelIdeal.ArrayValue.w1A m c) (Cert.KernelIdeal.ArrayValue.b1A m c) (Cert.KernelIdeal.ArrayValue.w2A m c) (Cert.KernelIdeal.ArrayValue.b2A m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _ _ _ _).trans ?_
  rw [Cert.ReferenceIdeal.RefValue.ref_eq_G, (hagree c).1, (hagree c).2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
